-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100000x128 : Shape := ⟨3, ![4, 100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S4x100000x128 : S_.BroadcastsInDim S4x100000x128 (![] : Fin 0 → Fin S4x100000x128.rank)
  reducesTo_S4x100000x128_S_d0_1_2 : S4x100000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128x10 .f32) (main_arg10 : FVec F S10 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg9
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg4 : FVec F S128x128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x100000x128 .f32) (main_arg1 : FVec F S128x128 .f32) (main_arg2 : FVec F S128x128 .f32) (main_arg3 : FVec F S128x128 .f32) (main_arg4 : FVec F S128x128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S4x100000x128 .f32 := Host.absf main_arg0
  let main_cst : FVec F S_ .f32 := constant S_ .f32 0x7F800000#32
  let main_v1 : FVec F S4x100000x128 .f32 := broadcastInDim S4x100000x128 ![] bcast_S_S4x100000x128 main_cst
  let main_v2 : IVec S4x100000x128 1 := cmpf .olt main_v0 main_v1
  let main_c : IVec S_ 1 := constantI S_ 1 1#1
  let main_v3 : IVec S_ 1 := (fun x v => Host.reduce IntOp.andi x v reducesTo_S4x100000x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S4x100000x128 : Shape := ⟨3, ![4, 100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x128 : Shape := ⟨2, ![1, 128]⟩
abbrev S1x10 : Shape := ⟨2, ![1, 10]⟩
abbrev S4x10 : Shape := ⟨2, ![4, 10]⟩
abbrev S1x5000x128 : Shape := ⟨3, ![1, 5000, 128]⟩
abbrev S8x128 : Shape := ⟨2, ![8, 128]⟩
abbrev S5000x128 : Shape := ⟨2, ![5000, 128]⟩
abbrev S4x128 : Shape := ⟨2, ![4, 128]⟩

abbrev nBuf : Space → Nat
  | .hbm => 19
  | .vmem => 14
  | .smem => 0
  | _ => 0

abbrev bufTy : (tb : Table) → Fin (tcTables nBuf tb) → BufTy
  | .hbm, ⟨0, _⟩ => ⟨S4x100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S128x128, .bf16⟩
  | .hbm, ⟨12, _⟩ => ⟨S128x128, .bf16⟩
  | .hbm, ⟨13, _⟩ => ⟨S128x128, .bf16⟩
  | .hbm, ⟨14, _⟩ => ⟨S128x128, .bf16⟩
  | .hbm, ⟨15, _⟩ => ⟨S1x128, .f32⟩
  | .hbm, ⟨16, _⟩ => ⟨S1x128, .f32⟩
  | .hbm, ⟨17, _⟩ => ⟨S1x10, .f32⟩
  | .hbm, ⟨18, _⟩ => ⟨S4x10, .f32⟩
  | .local _ .vmem, ⟨0, _⟩ => ⟨S1x5000x128, .f32⟩
  | .local _ .vmem, ⟨1, _⟩ => ⟨S1x5000x128, .f32⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x10, .f32⟩
  | .local _ .vmem, ⟨11, _⟩ => ⟨S1x10, .f32⟩
  | .local _ .vmem, ⟨12, _⟩ => ⟨S4x10, .f32⟩
  | .local _ .vmem, ⟨13, _⟩ => ⟨S8x128, .f32⟩
  | _, _ => ⟨S4x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨2, ![4, 20], ![false, false]⟩

def k0_cond2 (i : grid0.Coords) : BitVec 1 :=
  let arg0 : BitVec 32 := BitVec.ofNat 32 (i 0).val
  let c3_i32 : BitVec 32 := 3#32
  let v44 : BitVec 1 := Scalar.cmpi .eq arg0 c3_i32
  let arg1 : BitVec 32 := BitVec.ofNat 32 (i 1).val
  let c19_i32 : BitVec 32 := 19#32
  let v45 : BitVec 1 := Scalar.cmpi .eq arg1 c19_i32
  let v46 : BitVec 1 := Scalar.andi v44 v45
  let v47 : BitVec 32 := Scalar.extui v46
  let c0_i32_26 : BitVec 32 := 0#32
  let v48 : BitVec 1 := Scalar.cmpi .ne v47 c0_i32_26
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

class Facts₀ : Prop where
  bitsLt_bf16_f32 : FTy.bits .bf16 < FTy.bits .f32
  shapeCasts_S128_S1x128 : S128.ShapeCasts S1x128
  shapeCasts_S10_S1x10 : S10.ShapeCasts S1x10
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S128 : S5000x128.Reduces [0] S128
  iota_S8x128_d0_w32 : S8x128.Iotas .tc 32 [0]
  broadcasts_S1x128_S8x128 : S1x128.Broadcasts S8x128
  inb_S8x128_S4x128_0_0 : ∀ a, (![0, 0] : Fin 2 → Nat) a + S4x128.size a ≤ S8x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4x128 : S1x128.Broadcasts S4x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4x10 : S1x10.Broadcasts S4x10
  inb_S4x10_S4x10_0_0 : ∀ a, (![0, 0] : Fin 2 → Nat) a + S4x10.size a ≤ S4x10.size a
  h_S4x10 : 0 < S4x10.numel
  dot_S5000x128_S128x128_S5000x128_1_0_0_1_n_n_wf : DotDims.WF S5000x128 S128x128 S5000x128 [1] [0] [0] [1] [] []
  dot_S4x128_S128x128_S4x128_1_0_0_1_n_n_wf : DotDims.WF S4x128 S128x128 S4x128 [1] [0] [0] [1] [] []
  dot_S4x128_S128x10_S4x10_1_0_0_1_n_n_wf : DotDims.WF S4x128 S128x10 S4x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S4x100000x128.size a
  hwx0_0 : ∀ i : grid0.Coords, EltTy.bits .f32 = 32 ∨ (Rect.block (s := S4x100000x128) S1x5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x10.size a ≤ S128x10.size a
  hwx0_9 : ∀ i : grid0.Coords, EltTy.bits .f32 = 32 ∨ (Rect.block (s := S128x10) S128x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x10.size a ≤ S4x10.size a
  hwx0_11 : ∀ i : grid0.Coords, EltTy.bits .f32 = 32 ∨ (Rect.block (s := S4x10) S4x10.size (cc0_transform_11 i) (hinb0_11 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf
def dot_S4x128_S128x10_S4x10_1_0_0_1_n_n : DotDims S4x128 S128x10 S4x10 where
  lhsContracting := [1]
  rhsContracting := [0]
  lhsNonContracting := [0]
  rhsNonContracting := [1]
  lhsBatch := []
  rhsBatch := []
  wf := dot_S4x128_S128x10_S4x10_1_0_0_1_n_n_wf

abbrev win0_0 : Pipeline.Window sig grid0 :=
  Pipeline.Window.ofSpec (Memref.whole main_arg0) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v5) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v6) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S4x10.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4x100000x128 : Shape := ⟨3, ![4, 100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S4x128 : Shape := ⟨2, ![4, 128]⟩
abbrev S1x128 : Shape := ⟨2, ![1, 128]⟩
abbrev S4x10 : Shape := ⟨2, ![4, 10]⟩
abbrev S1x10 : Shape := ⟨2, ![1, 10]⟩

abbrev nBuf : Space → Nat
  | .hbm => 47
  | .vmem => 0
  | .smem => 0
  | _ => 0

abbrev bufTy : (tb : Table) → Fin (tcTables nBuf tb) → BufTy
  | .hbm, ⟨0, _⟩ => ⟨S4x100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S4x100000x128, .f32⟩
  | .hbm, ⟨12, _⟩ => ⟨S_, .f32⟩
  | .hbm, ⟨13, _⟩ => ⟨S4x100000x128, .f32⟩
  | .hbm, ⟨14, _⟩ => ⟨S4x100000x128, .f32⟩
  | .hbm, ⟨15, _⟩ => ⟨S4x100000x128, .f32⟩
  | .hbm, ⟨16, _⟩ => ⟨S_, .f32⟩
  | .hbm, ⟨17, _⟩ => ⟨S4x100000x128, .f32⟩
  | .hbm, ⟨18, _⟩ => ⟨S4x100000x128, .f32⟩
  | .hbm, ⟨19, _⟩ => ⟨S4x100000x128, .f32⟩
  | .hbm, ⟨20, _⟩ => ⟨S_, .f32⟩
  | .hbm, ⟨21, _⟩ => ⟨S4x100000x128, .f32⟩
  | .hbm, ⟨22, _⟩ => ⟨S4x100000x128, .f32⟩
  | .hbm, ⟨23, _⟩ => ⟨S4x100000x128, .f32⟩
  | .hbm, ⟨24, _⟩ => ⟨S_, .f32⟩
  | .hbm, ⟨25, _⟩ => ⟨S4x100000x128, .f32⟩
  | .hbm, ⟨26, _⟩ => ⟨S4x100000x128, .f32⟩
  | .hbm, ⟨27, _⟩ => ⟨S_, .f32⟩
  | .hbm, ⟨28, _⟩ => ⟨S4x128, .f32⟩
  | .hbm, ⟨29, _⟩ => ⟨S4x128, .f32⟩
  | .hbm, ⟨30, _⟩ => ⟨S1x128, .f32⟩
  | .hbm, ⟨31, _⟩ => ⟨S4x128, .f32⟩
  | .hbm, ⟨32, _⟩ => ⟨S4x128, .f32⟩
  | .hbm, ⟨33, _⟩ => ⟨S_, .f32⟩
  | .hbm, ⟨34, _⟩ => ⟨S4x128, .f32⟩
  | .hbm, ⟨35, _⟩ => ⟨S4x128, .f32⟩
  | .hbm, ⟨36, _⟩ => ⟨S4x128, .f32⟩
  | .hbm, ⟨37, _⟩ => ⟨S1x128, .f32⟩
  | .hbm, ⟨38, _⟩ => ⟨S4x128, .f32⟩
  | .hbm, ⟨39, _⟩ => ⟨S4x128, .f32⟩
  | .hbm, ⟨40, _⟩ => ⟨S_, .f32⟩
  | .hbm, ⟨41, _⟩ => ⟨S4x128, .f32⟩
  | .hbm, ⟨42, _⟩ => ⟨S4x128, .f32⟩
  | .hbm, ⟨43, _⟩ => ⟨S4x10, .f32⟩
  | .hbm, ⟨44, _⟩ => ⟨S1x10, .f32⟩
  | .hbm, ⟨45, _⟩ => ⟨S4x10, .f32⟩
  | .hbm, ⟨46, _⟩ => ⟨S4x10, .f32⟩
  | _, _ => ⟨S4x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_cst : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_call1_cst : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_call2_cst : Ref sig .tc := ⟨.hbm, 20, rfl⟩
abbrev main_call2_v0 : Ref sig .tc := ⟨.hbm, 21, rfl⟩
abbrev main_v5 : Ref sig .tc := ⟨.hbm, 22, rfl⟩
abbrev main_v6 : Ref sig .tc := ⟨.hbm, 23, rfl⟩
abbrev main_call3_cst : Ref sig .tc := ⟨.hbm, 24, rfl⟩
abbrev main_call3_v0 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call4_cst : Ref sig .tc := ⟨.hbm, 33, rfl⟩
abbrev main_call4_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call5_cst : Ref sig .tc := ⟨.hbm, 40, rfl⟩
abbrev main_call5_v0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩

abbrev nD : Nat := 1
abbrev τ : Topo := Topo.v7x

variable {F : FTy → Type} [FloatOps F]

class Facts₀ : Prop where
  bcast_S_S4x100000x128 : S_.BroadcastsInDim S4x100000x128 (![] : Fin 0 → Fin S4x100000x128.rank)
  reducesTo_S4x100000x128_S4x128_d1 : S4x100000x128.ReducesTo [1] S4x128
  h_S_ : 0 < S_.numel
  bcast_S128_S1x128_1 : S128.BroadcastsInDim S1x128 (![1] : Fin 1 → Fin S1x128.rank)
  bcast_S1x128_S4x128_0_1 : S1x128.BroadcastsInDim S4x128 (![0, 1] : Fin 2 → Fin S4x128.rank)
  bcast_S_S4x128 : S_.BroadcastsInDim S4x128 (![] : Fin 0 → Fin S4x128.rank)
  bcast_S10_S1x10_1 : S10.BroadcastsInDim S1x10 (![1] : Fin 1 → Fin S1x10.rank)
  bcast_S1x10_S4x10_0_1 : S1x10.BroadcastsInDim S4x10 (![0, 1] : Fin 2 → Fin S4x10.rank)
  dot_S4x100000x128_S128x128_S4x100000x128_2_0_01_1_n_n_wf : DotDims.WF S4x100000x128 S128x128 S4x100000x128 [2] [0] [0, 1] [1] [] []
  dot_S4x128_S128x128_S4x128_1_0_0_1_n_n_wf : DotDims.WF S4x128 S128x128 S4x128 [1] [0] [0] [1] [] []
  dot_S4x128_S128x10_S4x10_1_0_0_1_n_n_wf : DotDims.WF S4x128 S128x10 S4x10 [1] [0] [0] [1] [] []

variable [Facts₀]

def dot_S4x100000x128_S128x128_S4x100000x128_2_0_01_1_n_n : DotDims S4x100000x128 S128x128 S4x100000x128 where
  lhsContracting := [2]
  rhsContracting := [0]
  lhsNonContracting := [0, 1]
  rhsNonContracting := [1]
  lhsBatch := []
  rhsBatch := []
  wf := dot_S4x100000x128_S128x128_S4x100000x128_2_0_01_1_n_n_wf
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf
def dot_S4x128_S128x10_S4x10_1_0_0_1_n_n : DotDims S4x128 S128x10 S4x10 where
  lhsContracting := [1]
  rhsContracting := [0]
  lhsNonContracting := [0]
  rhsNonContracting := [1]
  lhsBatch := []
  rhsBatch := []
  wf := dot_S4x128_S128x10_S4x10_1_0_0_1_n_n_wf

class Facts : Prop extends Facts₀ where

variable [Facts]
-- ==== Proof.Spec.lean ====
/-
  The mathematics of the pooled graph network, stated once over plain index types and the extended reals.

  A node's feature row `x : Fin 128 → EReal` passes through four layers `x ↦ max (x · W) 0`; the rows of one graph
  are summed over its 100000 nodes (`pooled`), and the pooled row passes through three affine maps, the first two
  rectified (`logits`). The kernel walks the nodes of a graph in 20 tiles of 5000 and adds each tile's sum into a
  running accumulator row; `sum_tiles` says that the sum over all nodes is the sum over the tiles of the tiles'
  sums, and `runAcc` with its two laws is the accumulator's bookkeeping: after `n` grid points, row `r` holds
  the tiles of the points `20·r + s < n`.
-/
import Idealize.ShloMosaic.Lib.ValueIdx
import Idealize.ShloMosaic.PureOps.Ideal.Laws
import Mathlib.Algebra.BigOperators.Fin
import Mathlib.Algebra.BigOperators.Intervals

noncomputable section

namespace Cert.PoolNet

open Idealize.ShloMosaic Idealize.ShloMosaic.ValueIdx

/-- A matrix of extended reals with `a` rows and `b` columns. -/
abbrev Mat (a b : ℕ) : Type := (⟨2, ![a, b]⟩ : Shape).Idx → EReal
/-- A vector of extended reals of length `a`. -/
abbrev Row (a : ℕ) : Type := (⟨1, ![a]⟩ : Shape).Idx → EReal
/-- The node features: 4 graphs of 100000 nodes with 128 features each. -/
abbrev Feat : Type := (⟨3, ![4, 100000, 128]⟩ : Shape).Idx → EReal
/-- One tile of node features: 5000 nodes of one graph. -/
abbrev Tile : Type := (⟨3, ![1, 5000, 128]⟩ : Shape).Idx → EReal

/-- One layer on one node: the row times the weights, rectified. -/
def layer (W : Mat 128 128) (x : Fin 128 → EReal) : Fin 128 → EReal :=
  fun e => max (∑ k : Fin 128, x k * W (ix2 k e)) 0

/-- The four layers on one node. -/
def node (W1 W2 W3 W4 : Mat 128 128) (x : Fin 128 → EReal) : Fin 128 → EReal :=
  layer W4 (layer W3 (layer W2 (layer W1 x)))

/-- Sum pooling: the sum of a graph's node rows after the four layers. -/
def pooled (h : Feat) (W1 W2 W3 W4 : Mat 128 128) (b : Fin 4) (e : Fin 128) : EReal :=
  ∑ n : Fin 100000, node W1 W2 W3 W4 (fun k => h (ix3 b n k)) e

/-- An affine map on a row: the row times the weights plus the bias. -/
def dense {K N : ℕ} (W : Mat K N) (c : Row N) (x : Fin K → EReal) : Fin N → EReal :=
  fun q => ∑ k : Fin K, x k * W (ix2 k q) + c (ix1 q)

/-- The rectifier on a row. -/
def relu {N : ℕ} (x : Fin N → EReal) : Fin N → EReal := fun q => max (x q) 0

/-- The classifier on a pooled row. -/
def classify (C1w : Mat 128 128) (C1b : Row 128) (C2w : Mat 128 128) (C2b : Row 128) (C3w : Mat 128 10) (C3b : Row 10)
    (p : Fin 128 → EReal) : Fin 10 → EReal :=
  dense C3w C3b (relu (dense C2w C2b (relu (dense C1w C1b p))))

/-- The network's result: graph `j 0`'s logit `j 1`. -/
def logits (h : Feat) (W1 W2 W3 W4 : Mat 128 128) (C1w : Mat 128 128) (C1b : Row 128) (C2w : Mat 128 128) (C2b : Row 128)
    (C3w : Mat 128 10) (C3b : Row 10) : Mat 4 10 :=
  fun j => classify C1w C1b C2w C2b C3w C3b (pooled h W1 W2 W3 W4 (j 0)) (j 1)

/-- The sum of one tile's node rows after the four layers. -/
def tileSum (W1 W2 W3 W4 : Mat 128 128) (x : Tile) (e : Fin 128) : EReal :=
  ∑ r : Fin 5000, node W1 W2 W3 W4 (fun k => x (ix3 0 r k)) e

/-- Node `r` of tile `s`. -/
def nodeOf (s : Fin 20) (r : Fin 5000) : Fin 100000 := ⟨5000 * s.val + r.val, by have := s.isLt; have := r.isLt; omega⟩

/-- Tile `s` of graph `b`. -/
def tileOf (h : Feat) (b : Fin 4) (s : Fin 20) : Tile := fun y => h (ix3 b (nodeOf s (y 1)) (y 2))

/-- The nodes of a graph, numbered tile by tile. -/
def tileEquiv : Fin 20 × Fin 5000 ≃ Fin 100000 where
  toFun p := nodeOf p.1 p.2
  invFun n := (⟨n.val / 5000, by have := n.isLt; omega⟩, ⟨n.val % 5000, Nat.mod_lt _ (by norm_num)⟩)
  left_inv := by
    rintro ⟨s, r⟩
    have hs := s.isLt
    have hr := r.isLt
    refine Prod.ext (Fin.ext ?_) (Fin.ext ?_)
    · show (5000 * s.val + r.val) / 5000 = s.val
      omega
    · show (5000 * s.val + r.val) % 5000 = r.val
      omega
  right_inv := by
    intro n
    refine Fin.ext ?_
    show 5000 * (n.val / 5000) + n.val % 5000 = n.val
    omega

/-- A sum over the 100000 nodes is the sum over the 20 tiles of the sums over each tile's 5000 nodes. -/
theorem sum_tiles {β : Type*} [AddCommMonoid β] (f : Fin 100000 → β) :
    ∑ n : Fin 100000, f n = ∑ s : Fin 20, ∑ r : Fin 5000, f (nodeOf s r) := by
  rw [← Equiv.sum_comp tileEquiv f, Fintype.sum_prod_type]
  rfl

/-- So a graph's pooled row is the sum of its 20 tile sums. -/
theorem pooled_eq_tiles (h : Feat) (W1 W2 W3 W4 : Mat 128 128) (b : Fin 4) (e : Fin 128) :
    pooled h W1 W2 W3 W4 b e = ∑ s : Fin 20, tileSum W1 W2 W3 W4 (tileOf h b s) e := by
  unfold pooled
  rw [sum_tiles]
  rfl

/-! ## The accumulator's bookkeeping -/

section Acc
variable {β : Type*} [AddCommMonoid β]

/-- Row `r` of the accumulator after the first `n` grid points, the point numbered `j` contributing `P j` to row
    `j / 20`: the contributions of the points `20·r + s` below `n`. -/
def runAcc (P : ℕ → β) (n r : ℕ) : β := ∑ s ∈ Finset.range 20, if 20 * r + s < n then P (20 * r + s) else 0

theorem runAcc_zero (P : ℕ → β) (r : ℕ) : runAcc P 0 r = 0 := by
  unfold runAcc
  exact Finset.sum_eq_zero fun s _ => if_neg (Nat.not_lt_zero _)

/-- Point `n` adds its contribution to row `n / 20` and leaves the other rows alone. -/
theorem runAcc_succ (P : ℕ → β) (n r : ℕ) :
    runAcc P (n + 1) r = if r = n / 20 then runAcc P n r + P n else runAcc P n r := by
  unfold runAcc
  split_ifs with hr
  · have hterm : ∀ s ∈ Finset.range 20, (if 20 * r + s < n + 1 then P (20 * r + s) else 0)
        = (if 20 * r + s < n then P (20 * r + s) else 0) + (if s = n % 20 then P n else 0) := by
      intro s hs
      have hs' : s < 20 := Finset.mem_range.mp hs
      by_cases h1 : 20 * r + s < n
      · rw [if_pos (by omega : 20 * r + s < n + 1), if_pos h1, if_neg (by omega : ¬ s = n % 20), add_zero]
      · by_cases h2 : s = n % 20
        · have h3 : 20 * r + s = n := by omega
          rw [if_pos (by omega : 20 * r + s < n + 1), if_neg h1, if_pos h2, zero_add, h3]
        · rw [if_neg (by omega : ¬ 20 * r + s < n + 1), if_neg h1, if_neg h2, add_zero]
    rw [Finset.sum_congr rfl hterm, Finset.sum_add_distrib, Finset.sum_ite_eq' (Finset.range 20) (n % 20) (fun _ => P n),
      if_pos (Finset.mem_range.mpr (Nat.mod_lt _ (by norm_num)))]
  · refine Finset.sum_congr rfl fun s hs => ?_
    have hs' : s < 20 := Finset.mem_range.mp hs
    by_cases h1 : 20 * r + s < n
    · rw [if_pos (by omega : 20 * r + s < n + 1), if_pos h1]
    · rw [if_neg (by omega : ¬ 20 * r + s < n + 1), if_neg h1]

/-- After all 80 points a row below 4 holds all of its 20 contributions. -/
theorem runAcc_full (P : ℕ → β) (r : ℕ) (hr : r < 4) :
    runAcc P 80 r = ∑ s : Fin 20, P (20 * r + s.val) := by
  unfold runAcc
  rw [Finset.sum_range]
  exact Finset.sum_congr rfl fun s _ => if_pos (by have := s.isLt; omega)

end Acc

end Cert.PoolNet

end
-- ==== Proof.RefValue.lean ====
/-
  The reference program's result is the network's logits: each of its 36 host operations read at an index, stage by stage.

  The four node layers are read in row form: at graph b, node n, the stage's row is the layer applied to the previous
  stage's row. The sum over the node axis, started from zero, is the pooled row; the three affine stages on the pooled
  row, the first two rectified, are the classifier.
-/
import proofs.«132480_g49924699848963_cont_8to1c4_406_4_alg».proof.Proof.Gen.ReferenceIdeal.Read
import proofs.«132480_g49924699848963_cont_8to1c4_406_4_alg».proof.Proof.Spec

noncomputable section

namespace Cert.PoolNet.Ref

open Idealize.ShloMosaic Idealize.ShloMosaic.ValueIdx Cert.PoolNet Cert.ReferenceIdeal.Read

/-! ## The index functions, at an index given by its coordinates -/

section Indices
variable (b : Fin 4) (n : Fin 100000) (e k : Fin 128)

theorem lidx0 : lidx_main_v0 (ix3 b n e) k = ix3 b n k :=
  funext fun a => Fin.ext (by match a with | ⟨0, _⟩ => rfl | ⟨1, _⟩ => rfl | ⟨2, _⟩ => rfl)
theorem ridx0 : ridx_main_v0 (ix3 b n e) k = ix2 k e :=
  funext fun a => Fin.ext (by match a with | ⟨0, _⟩ => rfl | ⟨1, _⟩ => rfl)
theorem lidx2 : lidx_main_v2 (ix3 b n e) k = ix3 b n k :=
  funext fun a => Fin.ext (by match a with | ⟨0, _⟩ => rfl | ⟨1, _⟩ => rfl | ⟨2, _⟩ => rfl)
theorem ridx2 : ridx_main_v2 (ix3 b n e) k = ix2 k e :=
  funext fun a => Fin.ext (by match a with | ⟨0, _⟩ => rfl | ⟨1, _⟩ => rfl)
theorem lidx4 : lidx_main_v4 (ix3 b n e) k = ix3 b n k :=
  funext fun a => Fin.ext (by match a with | ⟨0, _⟩ => rfl | ⟨1, _⟩ => rfl | ⟨2, _⟩ => rfl)
theorem ridx4 : ridx_main_v4 (ix3 b n e) k = ix2 k e :=
  funext fun a => Fin.ext (by match a with | ⟨0, _⟩ => rfl | ⟨1, _⟩ => rfl)
theorem lidx6 : lidx_main_v6 (ix3 b n e) k = ix3 b n k :=
  funext fun a => Fin.ext (by match a with | ⟨0, _⟩ => rfl | ⟨1, _⟩ => rfl | ⟨2, _⟩ => rfl)
theorem ridx6 : ridx_main_v6 (ix3 b n e) k = ix2 k e :=
  funext fun a => Fin.ext (by match a with | ⟨0, _⟩ => rfl | ⟨1, _⟩ => rfl)

theorem idx8 : idx_main_v8 (ix2 b e) n = ix3 b n e :=
  funext fun a => Fin.ext (by match a with | ⟨0, _⟩ => rfl | ⟨1, _⟩ => rfl | ⟨2, _⟩ => rfl)

theorem lidx9 : lidx_main_v9 (ix2 b e) k = ix2 b k :=
  funext fun a => Fin.ext (by match a with | ⟨0, _⟩ => rfl | ⟨1, _⟩ => rfl)
theorem ridx9 : ridx_main_v9 (ix2 b e) k = ix2 k e :=
  funext fun a => Fin.ext (by match a with | ⟨0, _⟩ => rfl | ⟨1, _⟩ => rfl)
theorem idx11 : idx_main_v10 (idx_main_v11 (ix2 b e)) = ix1 e :=
  funext fun a => Fin.ext (by match a with | ⟨0, _⟩ => rfl)
theorem lidx14 : lidx_main_v14 (ix2 b e) k = ix2 b k :=
  funext fun a => Fin.ext (by match a with | ⟨0, _⟩ => rfl | ⟨1, _⟩ => rfl)
theorem ridx14 : ridx_main_v14 (ix2 b e) k = ix2 k e :=
  funext fun a => Fin.ext (by match a with | ⟨0, _⟩ => rfl | ⟨1, _⟩ => rfl)
theorem idx16 : idx_main_v15 (idx_main_v16 (ix2 b e)) = ix1 e :=
  funext fun a => Fin.ext (by match a with | ⟨0, _⟩ => rfl)

variable (q : Fin 10)
theorem lidx19 : lidx_main_v19 (ix2 b q) k = ix2 b k :=
  funext fun a => Fin.ext (by match a with | ⟨0, _⟩ => rfl | ⟨1, _⟩ => rfl)
theorem ridx19 : ridx_main_v19 (ix2 b q) k = ix2 k q :=
  funext fun a => Fin.ext (by match a with | ⟨0, _⟩ => rfl | ⟨1, _⟩ => rfl)
theorem idx21 : idx_main_v20 (idx_main_v21 (ix2 b q)) = ix1 q :=
  funext fun a => Fin.ext (by match a with | ⟨0, _⟩ => rfl)

end Indices

/-! ## The specification's pieces at an index -/

theorem layer_apply (W : Mat 128 128) (x : Fin 128 → EReal) (e : Fin 128) :
    layer W x e = max (∑ k : Fin 128, x k * W (ix2 k e)) 0 := rfl

theorem dense_apply {K N : ℕ} (W : Mat K N) (c : Row N) (x : Fin K → EReal) (q : Fin N) :
    dense W c x q = ∑ k : Fin K, x k * W (ix2 k q) + c (ix1 q) := rfl

theorem relu_apply {N : ℕ} (x : Fin N → EReal) (q : Fin N) : relu x q = max (x q) 0 := rfl

/-- The zero word is the extended real zero. -/
theorem zero_word : (FloatOps.ofBits (F := Ideal) .f32 0x00000000#32) = (0 : EReal) := by
  rw [Ideal.ofBits_def, Ideal.ofBits_zero_f32]

/-! ## The four node layers, in row form -/

section Layers
variable (h : Feat) (W1 W2 W3 W4 : Mat 128 128) (b : Fin 4) (n : Fin 100000) (e : Fin 128)

theorem v1_row : val_main_v1 (F := Ideal) h W1 (ix3 b n e) = layer W1 (fun k => h (ix3 b n k)) e := by
  rw [val_main_v1_apply, val_main_v0_apply, val_main_call0_v0_apply, val_main_call0_cst_apply, Ideal.maximumf_def,
    zero_word, layer_apply]
  refine congrArg (fun s : EReal => max s 0) (Finset.sum_congr rfl fun k _ => ?_)
  rw [lidx0, ridx0]

theorem v3_row : val_main_v3 (F := Ideal) h W1 W2 (ix3 b n e)
    = layer W2 (layer W1 (fun k => h (ix3 b n k))) e := by
  rw [val_main_v3_apply, val_main_v2_apply, val_main_call1_v0_apply, val_main_call1_cst_apply, Ideal.maximumf_def,
    zero_word, layer_apply W2]
  refine congrArg (fun s : EReal => max s 0) (Finset.sum_congr rfl fun k _ => ?_)
  rw [lidx2, ridx2, v1_row]

theorem v5_row : val_main_v5 (F := Ideal) h W1 W2 W3 (ix3 b n e)
    = layer W3 (layer W2 (layer W1 (fun k => h (ix3 b n k)))) e := by
  rw [val_main_v5_apply, val_main_v4_apply, val_main_call2_v0_apply, val_main_call2_cst_apply, Ideal.maximumf_def,
    zero_word, layer_apply W3]
  refine congrArg (fun s : EReal => max s 0) (Finset.sum_congr rfl fun k _ => ?_)
  rw [lidx4, ridx4, v3_row]

theorem v7_row : val_main_v7 (F := Ideal) h W1 W2 W3 W4 (ix3 b n e)
    = node W1 W2 W3 W4 (fun k => h (ix3 b n k)) e := by
  rw [val_main_v7_apply, val_main_v6_apply, val_main_call3_v0_apply, val_main_call3_cst_apply, Ideal.maximumf_def,
    zero_word]
  unfold node
  rw [layer_apply W4]
  refine congrArg (fun s : EReal => max s 0) (Finset.sum_congr rfl fun k _ => ?_)
  rw [lidx6, ridx6, v5_row]

/-- The sum over the node axis, started from zero, is the pooled row. -/
theorem v8_row : val_main_v8 (F := Ideal) h W1 W2 W3 W4 (ix2 b e) = pooled h W1 W2 W3 W4 b e := by
  rw [val_main_v8_apply, val_main_cst_apply, zero_word, zero_add]
  unfold pooled
  refine Finset.sum_congr rfl fun n _ => ?_
  rw [idx8, v7_row]

end Layers

/-! ## The classifier on the pooled row -/

section Classifier
variable (h : Feat) (W1 W2 W3 W4 C1w : Mat 128 128) (C1b : Row 128) (C2w : Mat 128 128) (C2b : Row 128)
  (C3w : Mat 128 10) (C3b : Row 10) (b : Fin 4)

theorem v13_row (e : Fin 128) : val_main_v13 (F := Ideal) h W1 W2 W3 W4 C1w C1b (ix2 b e)
    = relu (dense C1w C1b (pooled h W1 W2 W3 W4 b)) e := by
  rw [val_main_v13_apply, val_main_v12_apply, val_main_v9_apply, val_main_v11_apply, val_main_v10_apply,
    val_main_call4_v0_apply, val_main_call4_cst_apply, Ideal.maximumf_def, Ideal.addf_def, zero_word, idx11,
    relu_apply, dense_apply]
  refine congrArg (fun s : EReal => max (s + C1b (ix1 e)) 0) (Finset.sum_congr rfl fun k _ => ?_)
  rw [lidx9, ridx9, v8_row]

theorem v18_row (e : Fin 128) : val_main_v18 (F := Ideal) h W1 W2 W3 W4 C1w C1b C2w C2b (ix2 b e)
    = relu (dense C2w C2b (relu (dense C1w C1b (pooled h W1 W2 W3 W4 b)))) e := by
  rw [val_main_v18_apply, val_main_v17_apply, val_main_v14_apply, val_main_v16_apply, val_main_v15_apply,
    val_main_call5_v0_apply, val_main_call5_cst_apply, Ideal.maximumf_def, Ideal.addf_def, zero_word, idx16,
    relu_apply, dense_apply C2w]
  refine congrArg (fun s : EReal => max (s + C2b (ix1 e)) 0) (Finset.sum_congr rfl fun k _ => ?_)
  rw [lidx14, ridx14, v13_row]

theorem v22_row (q : Fin 10) : val_main_v22 (F := Ideal) h W1 W2 W3 W4 C1w C1b C2w C2b C3w C3b (ix2 b q)
    = classify C1w C1b C2w C2b C3w C3b (pooled h W1 W2 W3 W4 b) q := by
  rw [val_main_v22_apply, val_main_v19_apply, val_main_v21_apply, val_main_v20_apply, Ideal.addf_def, idx21]
  unfold classify
  rw [dense_apply C3w]
  refine congrArg (fun s : EReal => s + C3b (ix1 q)) (Finset.sum_congr rfl fun k _ => ?_)
  rw [lidx19, ridx19, v18_row]

end Classifier

/-- The reference's last stage, as a function of the eleven arguments, is `logits`. -/
theorem reference_eq (h : Feat) (W1 W2 W3 W4 C1w : Mat 128 128) (C1b : Row 128) (C2w : Mat 128 128) (C2b : Row 128)
    (C3w : Mat 128 10) (C3b : Row 10) :
    Cert.ReferenceIdeal.Read.val_main_v22 (F := Ideal) h W1 W2 W3 W4 C1w C1b C2w C2b C3w C3b
      = logits h W1 W2 W3 W4 C1w C1b C2w C2b C3w C3b := by
  funext j
  obtain ⟨b, q, rfl⟩ : ∃ (b : Fin 4) (q : Fin 10), j = ix2 b q := ⟨j 0, j 1, eq_ix2 j⟩
  exact v22_row h W1 W2 W3 W4 C1w C1b C2w C2b C3w C3b b q

end Cert.PoolNet.Ref

end
-- ==== Proof.Pieces.lean ====
/-
  What one grid point's body leaves in the accumulator and in the output block, as the body's stored values applied to
  what it loaded. At the first point the accumulator is first reset and the update reads the reset value back; at a
  later point the update reads what the point before left; at the last point the classifier reads the four top rows
  of the accumulator it has just updated.
-/
import proofs.«132480_g49924699848963_cont_8to1c4_406_4_alg».proof.Proof.Gen.KernelIdeal.Frame
import Idealize.ShloMosaic.Lib.Pipeline.Value

set_option maxRecDepth 16384

noncomputable section

namespace Cert.PoolNet.Pieces

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The row number of every accumulator entry, as the body makes it. -/
abbrev rowIds : IVec S8x128 32 := iota .tc S8x128 32 [0] iota_S8x128_d0_w32

/-- The accumulator entry the classifier's load of the four top rows reads at a given place. -/
abbrev topRows (j : S4x128.Idx) : S8x128.Idx :=
  (Rect.unit (s := S8x128) ![0, 0] S4x128.size inb_S8x128_S4x128_0_0).toLoadRect.idx j

theorem topRows_val (j : S4x128.Idx) (a : Fin 2) : (topRows j a).val = (j a).val := by
  show (![0, 0] : Fin 2 → Nat) a + 1 * (j a).val = (j a).val
  match a with
  | ⟨0, _⟩ => show 0 + 1 * (j 0).val = (j 0).val; omega
  | ⟨1, _⟩ => show 0 + 1 * (j 1).val = (j 1).val; omega

/-- At the first point: the update over the reset value. -/
theorem scratch_first (c : Dev nD) (i : grid0.Coords) (arg2 : Memref sig .tc .vmem S1x5000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S4x10 .f32) (harg13 : arg13.IsWhole) (arg14 : Memref sig .tc .vmem S8x128 .f32) (harg14 : arg14.IsWhole) (hc0 : cond0_0 i) (hc1 : ¬cond0_1 i)
    (x0 : Vec F S1x5000x128 .f32) (x1 : Vec F S128x128 .bf16) (x2 : Vec F S128x128 .bf16) (x3 : Vec F S128x128 .bf16) (x4 : Vec F S128x128 .bf16) (x5 : Vec F S128x128 .f32) (x6 : Vec F S1x128 .f32) (x7 : Vec F S128x128 .f32) (x8 : Vec F S1x128 .f32) (x9 : Vec F S128x10 .f32) (x10 : Vec F S1x10 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10
      = k0_pay1 (BitVec.ofNat 32 (i 0).val) (k0_pay4 x0 x1 x2 x3 x4) rowIds (k0_pay3 (F := F)) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x5000x128) hz3, View.ld_unit_zero (S := S128x128) hz2, View.ld_unit_zero (S := S8x128) hz2, View.ld_unit_zero (S := S1x128) hz2, View.ld_unit_zero (S := S128x10) hz2, View.ld_unit_zero (S := S1x10) hz2, View.ld_unit_zero (S := S4x10) hz2]

/-- At a middle point: the update over what the point before left (`xs0`). -/
theorem scratch_mid (c : Dev nD) (i : grid0.Coords) (arg2 : Memref sig .tc .vmem S1x5000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S4x10 .f32) (harg13 : arg13.IsWhole) (arg14 : Memref sig .tc .vmem S8x128 .f32) (harg14 : arg14.IsWhole) (hc0 : ¬cond0_0 i) (hc1 : ¬cond0_1 i)
    (x0 : Vec F S1x5000x128 .f32) (x1 : Vec F S128x128 .bf16) (x2 : Vec F S128x128 .bf16) (x3 : Vec F S128x128 .bf16) (x4 : Vec F S128x128 .bf16) (x5 : Vec F S128x128 .f32) (x6 : Vec F S1x128 .f32) (x7 : Vec F S128x128 .f32) (x8 : Vec F S1x128 .f32) (x9 : Vec F S128x10 .f32) (x10 : Vec F S1x10 .f32) (xs0 : Vec F S8x128 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = k0_pay1 (BitVec.ofNat 32 (i 0).val) (k0_pay4 x0 x1 x2 x3 x4) rowIds xs0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_B
  dsimp only
  sl_unfold_words
  rw [View.canon_unit_zero (S := S8x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x5000x128) hz3, View.ld_unit_zero (S := S128x128) hz2, View.ld_unit_zero (S := S8x128) hz2, View.ld_unit_zero (S := S1x128) hz2, View.ld_unit_zero (S := S128x10) hz2, View.ld_unit_zero (S := S1x10) hz2, View.ld_unit_zero (S := S4x10) hz2]

/-- At the last point the accumulator is updated the same way, -/
theorem scratch_last (c : Dev nD) (i : grid0.Coords) (arg2 : Memref sig .tc .vmem S1x5000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S4x10 .f32) (harg13 : arg13.IsWhole) (arg14 : Memref sig .tc .vmem S8x128 .f32) (harg14 : arg14.IsWhole) (hc0 : ¬cond0_0 i) (hc1 : cond0_1 i)
    (x0 : Vec F S1x5000x128 .f32) (x1 : Vec F S128x128 .bf16) (x2 : Vec F S128x128 .bf16) (x3 : Vec F S128x128 .bf16) (x4 : Vec F S128x128 .bf16) (x5 : Vec F S128x128 .f32) (x6 : Vec F S1x128 .f32) (x7 : Vec F S128x128 .f32) (x8 : Vec F S1x128 .f32) (x9 : Vec F S128x10 .f32) (x10 : Vec F S1x10 .f32) (xs0 : Vec F S8x128 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = k0_pay1 (BitVec.ofNat 32 (i 0).val) (k0_pay4 x0 x1 x2 x3 x4) rowIds xs0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero (S := S8x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x5000x128) hz3, View.ld_unit_zero (S := S128x128) hz2, View.ld_unit_zero (S := S8x128) hz2, View.ld_unit_zero (S := S1x128) hz2, View.ld_unit_zero (S := S128x10) hz2, View.ld_unit_zero (S := S1x10) hz2, View.ld_unit_zero (S := S4x10) hz2]

/-- and the output block is the classifier of the updated accumulator's four top rows. -/
theorem out_last (c : Dev nD) (i : grid0.Coords) (arg2 : Memref sig .tc .vmem S1x5000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S4x10 .f32) (harg13 : arg13.IsWhole) (arg14 : Memref sig .tc .vmem S8x128 .f32) (harg14 : arg14.IsWhole) (hc0 : ¬cond0_0 i) (hc1 : cond0_1 i)
    (x0 : Vec F S1x5000x128 .f32) (x1 : Vec F S128x128 .bf16) (x2 : Vec F S128x128 .bf16) (x3 : Vec F S128x128 .bf16) (x4 : Vec F S128x128 .bf16) (x5 : Vec F S128x128 .f32) (x6 : Vec F S1x128 .f32) (x7 : Vec F S128x128 .f32) (x8 : Vec F S1x128 .f32) (x9 : Vec F S128x10 .f32) (x10 : Vec F S1x10 .f32) (xs0 : Vec F S8x128 .f32) :
    out0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = k0_pay2 (fun j => k0_pay1 (BitVec.ofNat 32 (i 0).val) (k0_pay4 x0 x1 x2 x3 x4) rowIds xs0 xs0 (topRows j))
          x5 x6 x7 x8 x9 x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero (S := S4x10) hz2, View.readCov_eq_canon', View.canon_unit_zero (S := S8x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x5000x128) hz3, View.ld_unit_zero (S := S128x128) hz2, View.ld_unit_zero (S := S8x128) hz2, View.ld_unit_zero (S := S1x128) hz2, View.ld_unit_zero (S := S128x10) hz2, View.ld_unit_zero (S := S1x10) hz2, View.ld_unit_zero (S := S4x10) hz2]
  rfl

end Cert.PoolNet.Pieces

end
-- ==== Proof.Blocks.lean ====
/-
  What each window's block holds at a grid point, read off the arrays the region finds. Point `t` is graph `t / 20`,
  tile `t % 20`: the feature window's block is that tile of that graph; every other input window's block is its whole
  array. The weight arrays the region finds are the arguments' (a change of float format is the identity at the
  ideal values), and the bias rows are the arguments' vectors laid out as one row.
-/
import proofs.«132480_g49924699848963_cont_8to1c4_406_4_alg».proof.Proof.Gen.KernelIdeal.Frame
import proofs.«132480_g49924699848963_cont_8to1c4_406_4_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.PoolNet.Blocks

open Idealize.ShloMosaic Idealize.ShloMosaic.TcCoe Idealize.ShloMosaic.ValueIdx Idealize.SL.Sem
open Cert.KernelIdeal Cert.KernelIdeal.Gen Cert.PoolNet

variable (m : (ℓ : Loc nD τ sig) → Buf (Elt Ideal) ℓ)

theorem lt80 (t : Fin cfg0.N) : t.val < 80 := lt_of_lt_of_eq t.isLt (show cfg0.N = 80 from N_0)

/-- The graph of a grid point. -/
def graphOf (t : Fin cfg0.N) : Fin 4 := ⟨t.val / 20, by have := lt80 t; omega⟩
/-- The tile of a grid point. -/
def tileNo (t : Fin cfg0.N) : Fin 20 := ⟨t.val % 20, Nat.mod_lt _ (by norm_num)⟩

/-- The grid's coordinates at point `t`: graph `t / 20`, tile `t % 20`. -/
theorem coords_facts : ∀ t : Fin cfg0.N, ((grid0.coords t) 0).val = t.val / 20 ∧ ((grid0.coords t) 1).val = t.val % 20 :=
  (by decide +kernel : ∀ t : Fin grid0.N, ((grid0.coords t) 0).val = t.val / 20 ∧ ((grid0.coords t) 1).val = t.val % 20)

/-- The feature window's block index at point `t`. -/
theorem idx_feat : ∀ t : Fin cfg0.N, win0_0.index t (0 : Fin 3) = t.val / 20 ∧ win0_0.index t (1 : Fin 3) = t.val % 20
    ∧ win0_0.index t (2 : Fin 3) = 0 :=
  (by decide +kernel : ∀ t : Fin grid0.N, win0_0.index t (0 : Fin 3) = t.val / 20 ∧ win0_0.index t (1 : Fin 3) = t.val % 20
    ∧ win0_0.index t (2 : Fin 3) = 0)

/-- Every other input window stays at block (0, 0). -/
theorem idx_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0))

/-- The output window stays at block (0, 0) too. -/
theorem idx_out : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- The feature window's block at point `t` is tile `t % 20` of graph `t / 20`. -/
theorem blk0 (c : Dev nD) (t : Fin cfg0.N) :
    (iblk m c 0 t : Vec Ideal S1x5000x128 .f32) = tileOf (V m c main_arg0) (graphOf t) (tileNo t) := by
  obtain ⟨e0, e1, e2⟩ := idx_feat t
  funext y
  show V m c main_arg0 (((cfg0.win 0).blk t).view.emb y) = V m c main_arg0 (ix3 (graphOf t) (nodeOf (tileNo t) (y 1)) (y 2))
  refine congrArg (V m c main_arg0) (funext fun a => Fin.ext ?_)
  have h0 : (y 0).val < 1 := (y 0).isLt
  match a with
  | ⟨0, _⟩ => show win0_0.index t (0 : Fin 3) * 1 + 1 * (y 0).val = t.val / 20; omega
  | ⟨1, _⟩ => show win0_0.index t (1 : Fin 3) * 5000 + 1 * (y 1).val = 5000 * (t.val % 20) + (y 1).val; omega
  | ⟨2, _⟩ => show win0_0.index t (2 : Fin 3) * 128 + 1 * (y 2).val = (y 2).val; omega

/-- Window 1's block is its whole array at every point. -/
theorem blk1 (c : Dev nD) (t : Fin cfg0.N) :
    (iblk m c 1 t : Vec Ideal S128x128 .bf16) = (V m c main_call0_v0 : Vec Ideal S128x128 .bf16) := by
  obtain ⟨e0, e1⟩ := (idx_whole t).1
  funext y
  show V m c main_call0_v0 (((cfg0.win 1).blk t).view.emb y) = V m c main_call0_v0 y
  refine congrArg (V m c main_call0_v0) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2's block is its whole array at every point. -/
theorem blk2 (c : Dev nD) (t : Fin cfg0.N) :
    (iblk m c 2 t : Vec Ideal S128x128 .bf16) = (V m c main_call0_v1 : Vec Ideal S128x128 .bf16) := by
  obtain ⟨e0, e1⟩ := (idx_whole t).2.1
  funext y
  show V m c main_call0_v1 (((cfg0.win 2).blk t).view.emb y) = V m c main_call0_v1 y
  refine congrArg (V m c main_call0_v1) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block is its whole array at every point. -/
theorem blk3 (c : Dev nD) (t : Fin cfg0.N) :
    (iblk m c 3 t : Vec Ideal S128x128 .bf16) = (V m c main_call0_v2 : Vec Ideal S128x128 .bf16) := by
  obtain ⟨e0, e1⟩ := (idx_whole t).2.2.1
  funext y
  show V m c main_call0_v2 (((cfg0.win 3).blk t).view.emb y) = V m c main_call0_v2 y
  refine congrArg (V m c main_call0_v2) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block is its whole array at every point. -/
theorem blk4 (c : Dev nD) (t : Fin cfg0.N) :
    (iblk m c 4 t : Vec Ideal S128x128 .bf16) = (V m c main_call0_v3 : Vec Ideal S128x128 .bf16) := by
  obtain ⟨e0, e1⟩ := (idx_whole t).2.2.2.1
  funext y
  show V m c main_call0_v3 (((cfg0.win 4).blk t).view.emb y) = V m c main_call0_v3 y
  refine congrArg (V m c main_call0_v3) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block is its whole array at every point. -/
theorem blk5 (c : Dev nD) (t : Fin cfg0.N) :
    (iblk m c 5 t : Vec Ideal S128x128 .f32) = (V m c main_arg5 : Vec Ideal S128x128 .f32) := by
  obtain ⟨e0, e1⟩ := (idx_whole t).2.2.2.2.1
  funext y
  show V m c main_arg5 (((cfg0.win 5).blk t).view.emb y) = V m c main_arg5 y
  refine congrArg (V m c main_arg5) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block is its whole array at every point. -/
theorem blk6 (c : Dev nD) (t : Fin cfg0.N) :
    (iblk m c 6 t : Vec Ideal S1x128 .f32) = (V m c main_call0_v4 : Vec Ideal S1x128 .f32) := by
  obtain ⟨e0, e1⟩ := (idx_whole t).2.2.2.2.2.1
  funext y
  show V m c main_call0_v4 (((cfg0.win 6).blk t).view.emb y) = V m c main_call0_v4 y
  refine congrArg (V m c main_call0_v4) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is its whole array at every point. -/
theorem blk7 (c : Dev nD) (t : Fin cfg0.N) :
    (iblk m c 7 t : Vec Ideal S128x128 .f32) = (V m c main_arg7 : Vec Ideal S128x128 .f32) := by
  obtain ⟨e0, e1⟩ := (idx_whole t).2.2.2.2.2.2.1
  funext y
  show V m c main_arg7 (((cfg0.win 7).blk t).view.emb y) = V m c main_arg7 y
  refine congrArg (V m c main_arg7) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block is its whole array at every point. -/
theorem blk8 (c : Dev nD) (t : Fin cfg0.N) :
    (iblk m c 8 t : Vec Ideal S1x128 .f32) = (V m c main_call0_v5 : Vec Ideal S1x128 .f32) := by
  obtain ⟨e0, e1⟩ := (idx_whole t).2.2.2.2.2.2.2.1
  funext y
  show V m c main_call0_v5 (((cfg0.win 8).blk t).view.emb y) = V m c main_call0_v5 y
  refine congrArg (V m c main_call0_v5) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9's block is its whole array at every point. -/
theorem blk9 (c : Dev nD) (t : Fin cfg0.N) :
    (iblk m c 9 t : Vec Ideal S128x10 .f32) = (V m c main_arg9 : Vec Ideal S128x10 .f32) := by
  obtain ⟨e0, e1⟩ := (idx_whole t).2.2.2.2.2.2.2.2.1
  funext y
  show V m c main_arg9 (((cfg0.win 9).blk t).view.emb y) = V m c main_arg9 y
  refine congrArg (V m c main_arg9) (funext fun a => Fin.ext ?_)
  match a with
  | ⟨0, _⟩ => show win0_9.index t (0 : Fin 2) * 128 + 1 * (y 0).val = (y 0).val; omega
  | ⟨1, _⟩ => show win0_9.index t (1 : Fin 2) * 10 + 1 * (y 1).val = (y 1).val; omega

/-- Window 10's block is its whole array at every point. -/
theorem blk10 (c : Dev nD) (t : Fin cfg0.N) :
    (iblk m c 10 t : Vec Ideal S1x10 .f32) = (V m c main_call0_v6 : Vec Ideal S1x10 .f32) := by
  obtain ⟨e0, e1⟩ := (idx_whole t).2.2.2.2.2.2.2.2.2
  funext y
  show V m c main_call0_v6 (((cfg0.win 10).blk t).view.emb y) = V m c main_call0_v6 y
  refine congrArg (V m c main_call0_v6) (funext fun a => Fin.ext ?_)
  match a with
  | ⟨0, _⟩ => show win0_10.index t (0 : Fin 2) * 1 + 1 * (y 0).val = (y 0).val; omega
  | ⟨1, _⟩ => show win0_10.index t (1 : Fin 2) * 10 + 1 * (y 1).val = (y 1).val; omega

/-! ## The arrays the region finds -/

/-- The region finds argument main_arg1 behind window 1: the change of float format before the region is the identity. -/
theorem arr1 (c : Dev nD) : @Eq (Vec Ideal S128x128 .bf16) (V m c main_call0_v0) (m ((c : Thread nD τ).loc main_arg1)) := by
  have e : @Eq (Vec Ideal S128x128 .bf16) (V m c main_call0_v0) (truncf (F := Ideal) (s := S128x128) (φ := .f32) .bf16 (m ((c : Thread nD τ).loc main_arg1)) bitsLt_bf16_f32) := by
    dsimp only [Gen.V, Gen.hostOps0]; after_results; rfl
  exact e

/-- The region finds argument main_arg2 behind window 2: the change of float format before the region is the identity. -/
theorem arr2 (c : Dev nD) : @Eq (Vec Ideal S128x128 .bf16) (V m c main_call0_v1) (m ((c : Thread nD τ).loc main_arg2)) := by
  have e : @Eq (Vec Ideal S128x128 .bf16) (V m c main_call0_v1) (truncf (F := Ideal) (s := S128x128) (φ := .f32) .bf16 (m ((c : Thread nD τ).loc main_arg2)) bitsLt_bf16_f32) := by
    dsimp only [Gen.V, Gen.hostOps0]; after_results; rfl
  exact e

/-- The region finds argument main_arg3 behind window 3: the change of float format before the region is the identity. -/
theorem arr3 (c : Dev nD) : @Eq (Vec Ideal S128x128 .bf16) (V m c main_call0_v2) (m ((c : Thread nD τ).loc main_arg3)) := by
  have e : @Eq (Vec Ideal S128x128 .bf16) (V m c main_call0_v2) (truncf (F := Ideal) (s := S128x128) (φ := .f32) .bf16 (m ((c : Thread nD τ).loc main_arg3)) bitsLt_bf16_f32) := by
    dsimp only [Gen.V, Gen.hostOps0]; after_results; rfl
  exact e

/-- The region finds argument main_arg4 behind window 4: the change of float format before the region is the identity. -/
theorem arr4 (c : Dev nD) : @Eq (Vec Ideal S128x128 .bf16) (V m c main_call0_v3) (m ((c : Thread nD τ).loc main_arg4)) := by
  have e : @Eq (Vec Ideal S128x128 .bf16) (V m c main_call0_v3) (truncf (F := Ideal) (s := S128x128) (φ := .f32) .bf16 (m ((c : Thread nD τ).loc main_arg4)) bitsLt_bf16_f32) := by
    dsimp only [Gen.V, Gen.hostOps0]; after_results; rfl
  exact e

/-- Window 6's one row is argument main_arg6 laid out as a row. -/
theorem arr6 (c : Dev nD) (e : Fin 128) : @Eq EReal ((V m c main_call0_v4 : Vec Ideal S1x128 .f32) (ix2 0 e)) ((m ((c : Thread nD τ).loc main_arg6)) (ix1 e)) := by
  have h : @Eq (Vec Ideal S1x128 .f32) (V m c main_call0_v4) (shapeCast S1x128 (m ((c : Thread nD τ).loc main_arg6)) shapeCasts_S128_S1x128) := by
    dsimp only [Gen.V, Gen.hostOps0]; after_results; rfl
  rw [h]
  exact shapeCast_a_1a_apply _ _ 0 e

/-- Window 8's one row is argument main_arg8 laid out as a row. -/
theorem arr8 (c : Dev nD) (e : Fin 128) : @Eq EReal ((V m c main_call0_v5 : Vec Ideal S1x128 .f32) (ix2 0 e)) ((m ((c : Thread nD τ).loc main_arg8)) (ix1 e)) := by
  have h : @Eq (Vec Ideal S1x128 .f32) (V m c main_call0_v5) (shapeCast S1x128 (m ((c : Thread nD τ).loc main_arg8)) shapeCasts_S128_S1x128) := by
    dsimp only [Gen.V, Gen.hostOps0]; after_results; rfl
  rw [h]
  exact shapeCast_a_1a_apply _ _ 0 e

/-- Window 10's one row is argument main_arg10 laid out as a row. -/
theorem arr10 (c : Dev nD) (e : Fin 10) : @Eq EReal ((V m c main_call0_v6 : Vec Ideal S1x10 .f32) (ix2 0 e)) ((m ((c : Thread nD τ).loc main_arg10)) (ix1 e)) := by
  have h : @Eq (Vec Ideal S1x10 .f32) (V m c main_call0_v6) (shapeCast S1x10 (m ((c : Thread nD τ).loc main_arg10)) shapeCasts_S10_S1x10) := by
    dsimp only [Gen.V, Gen.hostOps0]; after_results; rfl
  rw [h]
  exact shapeCast_a_1a_apply _ _ 0 e

end Cert.PoolNet.Blocks

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.PayValue.lean ====
/-
  The kernel body's four stored values, read at an index at the ideal values.
-/
import proofs.«132480_g49924699848963_cont_8to1c4_406_4_alg».proof.Proof.Gen.KernelIdeal.Skeleton
import proofs.«132480_g49924699848963_cont_8to1c4_406_4_alg».proof.Proof.Spec
import proofs.«132480_g49924699848963_cont_8to1c4_406_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.PoolNet.Pay

open Idealize.ShloMosaic Idealize.ShloMosaic.ValueIdx Cert.KernelIdeal Cert.KernelIdeal.Gen Cert.PoolNet

/-! ## The reset value -/

/-- The accumulator's reset value is zero everywhere. -/
theorem pay3_apply (y : S8x128.Idx) : k0_pay3 (F := Ideal) y = 0 := by
  unfold k0_pay3
  rw [shapeCast_self]
  exact Ideal.ofBits_zero_f32

/-! ## One tile's partial row -/

/-- A value rectified against the zero splat, read at an index. -/
theorem rect_apply {s : Shape} (v : FVec Ideal s .f32) (i : s.Idx) (t : EReal) (h : v i = t) :
    maximumf v (broadcast s (Scalar.ofBits (F := Ideal) .f32 0x00000000#32)) i = max t 0 := by
  rw [maximumf_apply, broadcast_apply, h]
  exact congrArg (max t) Ideal.ofBits_zero_f32

/-- One layer on a block of 5000 rows: the block rounded to the narrow format (the identity at the ideal values),
    times the weights into the zero accumulator, rectified, read at row `r` and column `e`. -/
theorem layer_block (v : FVec Ideal S5000x128 .f32) (w : FVec Ideal S128x128 .bf16) (r : Fin 5000) (e : Fin 128) :
    maximumf (matmul dot_S5000x128_S128x128_S5000x128_1_0_0_1_n_n none (truncf .bf16 v bitsLt_bf16_f32)
        (shapeCast S128x128 w shapeCasts_S128x128_S128x128) (constant (F := Ideal) S5000x128 .f32 0x00000000#32))
      (broadcast S5000x128 (Scalar.ofBits (F := Ideal) .f32 0x00000000#32)) (ix2 r e)
      = layer w (fun k => v (ix2 r k)) e := by
  refine rect_apply _ _ _ ?_
  rw [shapeCast_self]
  exact Cert.PlainDot.matmul_zero_apply _ rfl none _ _ r e

/-- One tile's partial row: the sum over the tile's 5000 nodes of the node rows after the four layers. -/
theorem pay4_apply (x : Vec Ideal S1x5000x128 .f32) (w1 w2 w3 w4 : Vec Ideal S128x128 .bf16) (e : Fin 128) :
    k0_pay4 (F := Ideal) x w1 w2 w3 w4 (ix2 0 e) = tileSum w1 w2 w3 w4 x e := by
  unfold k0_pay4
  refine (shapeCast_a_1a_apply _ _ 0 e).trans ?_
  refine (Ideal.multiReduction_add_single _ _ _ _ _ _).trans ?_
  unfold tileSum node
  refine Finset.sum_congr rfl fun r _ => ?_
  have hidx : reduces_S5000x128_S128.lift (ix1 e) r = ix2 r e :=
    funext fun a => Fin.ext (match a with | ⟨0, _⟩ => rfl | ⟨1, _⟩ => rfl)
  rw [hidx]
  refine (layer_block _ w4 r e).trans (congrArg (fun f => layer w4 f e) (funext fun k4 => ?_))
  refine (layer_block _ w3 r k4).trans (congrArg (fun f => layer w3 f k4) (funext fun k3 => ?_))
  refine (layer_block _ w2 r k3).trans (congrArg (fun f => layer w2 f k3) (funext fun k2 => ?_))
  refine (layer_block _ w1 r k2).trans (congrArg (fun f => layer w1 f k2) (funext fun k1 => ?_))
  exact shapeCast_1ab_ab_apply x _ r k1

/-! ## The accumulator's update -/

/-- Two words of small naturals are equal exactly when the naturals are. -/
theorem cmpi_eq_ofNat (r b : ℕ) (hr : r < 8) (hb : b < 4) :
    IntOp.cmpi .eq (BitVec.ofNat 32 r) (BitVec.ofNat 32 b) = if r = b then 1#1 else 0#1 := by
  unfold IntOp.cmpi
  by_cases h : r = b
  · subst h
    simp
  · have hne : BitVec.ofNat 32 r ≠ BitVec.ofNat 32 b := by
      intro h'
      have h2 := congrArg BitVec.toNat h'
      rw [BitVec.toNat_ofNat, BitVec.toNat_ofNat] at h2
      omega
    rw [if_neg h, beq_eq_false_iff_ne.mpr hne]
    rfl

/-- The accumulator's update: row `b` receives the partial row, every other row is kept. -/
theorem pay1_apply (b : ℕ) (hb : b < 4) (part : FVec Ideal S1x128 .f32) (rows : IVec S8x128 32)
    (hrows : ∀ y : S8x128.Idx, rows y = BitVec.ofNat 32 (y 0).val) (old old' : Vec Ideal S8x128 .f32) (r : Fin 8) (e : Fin 128) :
    k0_pay1 (F := Ideal) (BitVec.ofNat 32 b) part rows old old' (ix2 r e)
      = if r.val = b then old (ix2 r e) + part (ix2 0 e) else old' (ix2 r e) := by
  unfold k0_pay1
  rw [shapeCast_self]
  refine (select_apply _ _ _ _).trans ?_
  have hc : cmpi .eq rows (broadcast S8x128 (BitVec.ofNat 32 b)) (ix2 r e) = if r.val = b then 1#1 else 0#1 := by
    show IntOp.cmpi .eq (rows (ix2 r e)) (BitVec.ofNat 32 b) = _
    rw [hrows]
    exact cmpi_eq_ofNat r.val b r.isLt hb
  rw [hc]
  by_cases h : r.val = b
  · rw [if_pos h, if_pos h, select_one, addf_apply, broadcastTo_1b_ab_apply]
  · rw [if_neg h, if_neg h, select_zero]

/-! ## The classifier -/

/-- An affine map on the four pooled rows: the rows times the weights into the zero accumulator, plus the one bias
    row broadcast over the four, read at row `b` and column `q`. -/
theorem dense_block {N : ℕ} (d : DotDims ⟨2, ![4, 128]⟩ ⟨2, ![128, N]⟩ ⟨2, ![4, N]⟩) (hd : d = DotDims.plain 4 128 N)
    (p : FVec Ideal ⟨2, ![4, 128]⟩ .f32) (w : FVec Ideal ⟨2, ![128, N]⟩ .f32) (c : FVec Ideal ⟨2, ![1, N]⟩ .f32)
    (hc : (⟨2, ![1, N]⟩ : Shape).ShapeCasts ⟨2, ![1, N]⟩) (hbr : (⟨2, ![1, N]⟩ : Shape).Broadcasts ⟨2, ![4, N]⟩)
    (b : Fin 4) (q : Fin N) :
    addf (matmul d none p w (constant (F := Ideal) ⟨2, ![4, N]⟩ .f32 0x00000000#32))
        (broadcastTo ⟨2, ![4, N]⟩ (shapeCast ⟨2, ![1, N]⟩ c hc) hbr) (ix2 b q)
      = dense w (fun j => c (ix2 0 (j 0))) (fun k => p (ix2 b k)) q := by
  rw [addf_apply, shapeCast_self, broadcastTo_1b_ab_apply, Cert.PlainDot.matmul_zero_apply d hd]
  rfl

/-- The classifier on the pooled rows. -/
theorem pay2_apply (p : Vec Ideal S4x128 .f32) (c1w : Vec Ideal S128x128 .f32) (c1b : Vec Ideal S1x128 .f32)
    (c2w : Vec Ideal S128x128 .f32) (c2b : Vec Ideal S1x128 .f32) (c3w : Vec Ideal S128x10 .f32) (c3b : Vec Ideal S1x10 .f32)
    (b : Fin 4) (q : Fin 10) :
    k0_pay2 (F := Ideal) p c1w c1b c2w c2b c3w c3b (ix2 b q)
      = classify c1w (fun j => c1b (ix2 0 (j 0))) c2w (fun j => c2b (ix2 0 (j 0))) c3w (fun j => c3b (ix2 0 (j 0)))
          (fun k => p (ix2 b k)) q := by
  unfold k0_pay2 classify relu
  refine (dense_block _ rfl _ c3w c3b _ _ b q).trans (congrArg (fun f => dense c3w _ f q) (funext fun k3 => ?_))
  refine rect_apply _ _ _ ?_
  refine (dense_block _ rfl _ c2w c2b _ _ b k3).trans (congrArg (fun f => dense c2w _ f k3) (funext fun k2 => ?_))
  refine rect_apply _ _ _ ?_
  exact dense_block _ rfl p c1w c1b _ _ b k2

end Cert.PoolNet.Pay

end
-- ==== Proof.KernelValue.lean ====
/-
  The kernel's result array is the network's logits.

  The accumulator after point `n` holds, in row `r`, the tile sums of the points `20·r + s ≤ n` (`acc_inv`, by induction on
  the point: the first point resets the accumulator and adds its tile to row 0; every later point adds its tile to the row of
  its graph). After the last point the four top rows are therefore the pooled rows of the four graphs (`pooled_at_last`), the
  output block written there is the classifier of those rows, and that block is the whole result array, written back once.
-/
import proofs.«132480_g49924699848963_cont_8to1c4_406_4_alg».proof.Proof.Gen.KernelIdeal.Value
import proofs.«132480_g49924699848963_cont_8to1c4_406_4_alg».proof.Proof.Spec
import proofs.«132480_g49924699848963_cont_8to1c4_406_4_alg».proof.Proof.Pieces
import proofs.«132480_g49924699848963_cont_8to1c4_406_4_alg».proof.Proof.Blocks
import proofs.«132480_g49924699848963_cont_8to1c4_406_4_alg».proof.Proof.PayValue
import Idealize.ShloMosaic.Lib.Pipeline.Value
import Idealize.ShloMosaic.Lib.ValueIdx

noncomputable section

namespace Cert.PoolNet.Kernel

open Idealize.ShloMosaic Idealize.ShloMosaic.TcCoe Idealize.ShloMosaic.ValueIdx Idealize.SL.Sem
open Idealize.ShloMosaic.Pipeline (Dat)
open Cert.KernelIdeal Cert.KernelIdeal.Gen Cert.PoolNet Cert.PoolNet.Blocks Cert.PoolNet.Pieces

variable (m : (ℓ : Loc nD τ sig) → Buf (Elt Ideal) ℓ) (ρ : Dev nD → PrngReg)

/-! ## The argument arrays -/

abbrev H (c : Dev nD) : Feat := m ((c : Thread nD τ).loc main_arg0)
abbrev W1 (c : Dev nD) : Mat 128 128 := m ((c : Thread nD τ).loc main_arg1)
abbrev W2 (c : Dev nD) : Mat 128 128 := m ((c : Thread nD τ).loc main_arg2)
abbrev W3 (c : Dev nD) : Mat 128 128 := m ((c : Thread nD τ).loc main_arg3)
abbrev W4 (c : Dev nD) : Mat 128 128 := m ((c : Thread nD τ).loc main_arg4)
abbrev C1w (c : Dev nD) : Mat 128 128 := m ((c : Thread nD τ).loc main_arg5)
abbrev C1b (c : Dev nD) : Row 128 := m ((c : Thread nD τ).loc main_arg6)
abbrev C2w (c : Dev nD) : Mat 128 128 := m ((c : Thread nD τ).loc main_arg7)
abbrev C2b (c : Dev nD) : Row 128 := m ((c : Thread nD τ).loc main_arg8)
abbrev C3w (c : Dev nD) : Mat 128 10 := m ((c : Thread nD τ).loc main_arg9)
abbrev C3b (c : Dev nD) : Row 10 := m ((c : Thread nD τ).loc main_arg10)

/-! ## One point's update of the accumulator -/

theorem rowIds_apply (y : S8x128.Idx) : rowIds y = BitVec.ofNat 32 (y 0).val :=
  iota_single_apply .tc S8x128 32 0 iota_S8x128_d0_w32 y

/-- The update at graph `b`: row `b` gains the tile sum of the loaded block, the other rows are kept. -/
theorem step_apply (b : ℕ) (hb : b < 4) (x0 : Vec Ideal S1x5000x128 .f32) (x1 x2 x3 x4 : Vec Ideal S128x128 .bf16)
    (prev prev' : Vec Ideal S8x128 .f32) (r : Fin 8) (e : Fin 128) :
    k0_pay1 (F := Ideal) (BitVec.ofNat 32 b) (k0_pay4 x0 x1 x2 x3 x4) rowIds prev prev' (ix2 r e)
      = if r.val = b then prev (ix2 r e) + tileSum x1 x2 x3 x4 x0 e else prev' (ix2 r e) := by
  rw [Pay.pay1_apply b hb _ rowIds rowIds_apply prev prev' r e, Pay.pay4_apply]

/-- What grid point `j` contributes to its graph's row: the tile sum of its tile. -/
def contrib (c : Dev nD) (j : ℕ) (e : Fin 128) : EReal :=
  if hj : j < cfg0.N then
    tileSum (W1 m c) (W2 m c) (W3 m c) (W4 m c) (tileOf (H m c) (graphOf ⟨j, hj⟩) (tileNo ⟨j, hj⟩)) e
  else 0

/-- The tile sum of the blocks loaded at point `t` is that point's contribution. -/
theorem tile_at (c : Dev nD) (t : Fin cfg0.N) (e : Fin 128) :
    tileSum (iblk m c 1 t) (iblk m c 2 t) (iblk m c 3 t) (iblk m c 4 t) (iblk m c 0 t) e = contrib m c t.val e := by
  rw [blk0 m c t, blk1 m c t, blk2 m c t, blk3 m c t, blk4 m c t, arr1 m c, arr2 m c, arr3 m c, arr4 m c, V_main_arg0 m c]
  unfold contrib
  rw [dif_pos t.isLt]

/-- After a point that is not the first, the accumulator is the update over what the point before left. -/
theorem scratch_step (c : Dev nD) (t : Fin cfg0.N) (h0 : ¬t.val % 80 = 0) :
    (outsAt0 m c t.val t.isLt).2
      = k0_pay1 (F := Ideal) (BitVec.ofNat 32 ((grid0.coords t) 0).val)
          (k0_pay4 (iblk m c 0 t) (iblk m c 1 t) (iblk m c 2 t) (iblk m c 3 t) (iblk m c 4 t)) rowIds
          (outsAt0 m c (t.val - 1) (Nat.lt_of_le_of_lt (Nat.sub_le _ _) t.isLt)).2 (outsAt0 m c (t.val - 1) (Nat.lt_of_le_of_lt (Nat.sub_le _ _) t.isLt)).2 := by
  by_cases h1 : t.val % 80 = 79
  · rw [outsAt0_C m c t h0 h1]
    dsimp only
    exact scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2
  · rw [outsAt0_B m c t h0 h1]
    dsimp only
    exact scratch_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2

/-- After the first point, the accumulator is the update over the reset value. -/
theorem scratch_zero (c : Dev nD) (t : Fin cfg0.N) (h0 : t.val % 80 = 0) :
    (outsAt0 m c t.val t.isLt).2
      = k0_pay1 (F := Ideal) (BitVec.ofNat 32 ((grid0.coords t) 0).val)
          (k0_pay4 (iblk m c 0 t) (iblk m c 1 t) (iblk m c 2 t) (iblk m c 3 t) (iblk m c 4 t)) rowIds
          (k0_pay3 (F := Ideal)) (k0_pay3 (F := Ideal)) := by
  have h1 : ¬t.val % 80 = 79 := by omega
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- THE ACCUMULATOR after point `n`: row `r` holds the contributions of the points `20·r + s` up to `n`. -/
theorem acc_inv (c : Dev nD) : ∀ (n : ℕ) (hn : n < cfg0.N) (r : Fin 8) (e : Fin 128),
    (outsAt0 m c n hn).2 (ix2 r e) = runAcc (fun j => contrib m c j e) (n + 1) r.val
  | 0, hn, r, e => by
    have hb : ((grid0.coords (⟨0, hn⟩ : Fin cfg0.N)) 0).val = 0 / 20 := (coords_facts ⟨0, hn⟩).1
    refine (congrFun (scratch_zero m c ⟨0, hn⟩ (Nat.zero_mod _)) (ix2 r e)).trans ?_
    refine (step_apply _ (by rw [hb]; norm_num) _ _ _ _ _ _ _ r e).trans ?_
    rw [Pay.pay3_apply, tile_at m c ⟨0, hn⟩ e, runAcc_succ, runAcc_zero, hb]
  | n + 1, hn, r, e => by
    have hN : n + 1 < 80 := lt_of_lt_of_eq hn (show cfg0.N = 80 from N_0)
    have hb : ((grid0.coords (⟨n + 1, hn⟩ : Fin cfg0.N)) 0).val = (n + 1) / 20 := (coords_facts ⟨n + 1, hn⟩).1
    have ih := acc_inv c n (Nat.lt_of_succ_lt hn) r e
    refine (congrFun (scratch_step m c ⟨n + 1, hn⟩ (by show ¬(n + 1) % 80 = 0; omega)) (ix2 r e)).trans ?_
    refine (step_apply _ (by rw [hb]; omega) _ _ _ _ _ _ _ r e).trans ?_
    rw [tile_at m c ⟨n + 1, hn⟩ e, runAcc_succ, hb]
    show (if r.val = (n + 1) / 20 then (outsAt0 m c n (Nat.lt_of_succ_lt hn)).2 (ix2 r e) + contrib m c (n + 1) e
      else (outsAt0 m c n (Nat.lt_of_succ_lt hn)).2 (ix2 r e)) = _
    rw [ih]

/-- After the last point the four top rows of the accumulator are the four graphs' pooled rows. -/
theorem pooled_at_last (c : Dev nD) (t : Fin cfg0.N) (h1 : t.val % 80 = 79) (b : Fin 4) (e : Fin 128) :
    (outsAt0 m c t.val t.isLt).2 (ix2 (⟨b.val, by have := b.isLt; omega⟩ : Fin 8) e)
      = pooled (H m c) (W1 m c) (W2 m c) (W3 m c) (W4 m c) b e := by
  have ht : t.val = 79 := by have := lt80 t; omega
  rw [acc_inv m c t.val t.isLt _ e]
  show runAcc _ (t.val + 1) b.val = _
  rw [ht, runAcc_full _ b.val b.isLt, pooled_eq_tiles]
  refine Finset.sum_congr rfl fun s _ => ?_
  have hs := s.isLt
  have hb := b.isLt
  have hj : 20 * b.val + s.val < cfg0.N := lt_of_lt_of_eq (by omega : 20 * b.val + s.val < 80) (show cfg0.N = 80 from N_0).symm
  show contrib m c (20 * b.val + s.val) e = _
  unfold contrib
  rw [dif_pos hj]
  have eb : graphOf (⟨20 * b.val + s.val, hj⟩ : Fin cfg0.N) = b := Fin.ext (by show (20 * b.val + s.val) / 20 = b.val; omega)
  have es : tileNo (⟨20 * b.val + s.val, hj⟩ : Fin cfg0.N) = s := Fin.ext (by show (20 * b.val + s.val) % 20 = s.val; omega)
  rw [eb, es]

/-! ## The output block at the last point -/

/-- The classifier's loaded rows are the accumulator's four top rows after the update. -/
theorem out_at_last (c : Dev nD) (t : Fin cfg0.N) (h0 : ¬t.val % 80 = 0) (h1 : t.val % 80 = 79) :
    out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2
      = k0_pay2 (F := Ideal) (fun j => (outsAt0 m c t.val t.isLt).2 (topRows j))
          (iblk m c 5 t) (iblk m c 6 t) (iblk m c 7 t) (iblk m c 8 t) (iblk m c 9 t) (iblk m c 10 t) := by
  rw [scratch_step m c t h0]
  exact out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2

/-- The output block at the last point, entry by entry, is the logits. -/
theorem out_value (c : Dev nD) (t : Fin cfg0.N) (h1 : t.val % 80 = 79) (y : S4x10.Idx) :
    k0_pay2 (F := Ideal) (fun j => (outsAt0 m c t.val t.isLt).2 (topRows j))
        (iblk m c 5 t) (iblk m c 6 t) (iblk m c 7 t) (iblk m c 8 t) (iblk m c 9 t) (iblk m c 10 t) y
      = logits (H m c) (W1 m c) (W2 m c) (W3 m c) (W4 m c) (C1w m c) (C1b m c) (C2w m c) (C2b m c) (C3w m c) (C3b m c) y := by
  obtain ⟨b, q, rfl⟩ : ∃ (b : Fin 4) (q : Fin 10), y = ix2 b q := ⟨y 0, y 1, eq_ix2 y⟩
  rw [Pay.pay2_apply]
  unfold logits
  show _ = classify (C1w m c) (C1b m c) (C2w m c) (C2b m c) (C3w m c) (C3b m c) (pooled (H m c) (W1 m c) (W2 m c) (W3 m c) (W4 m c) b) q
  have hrows : (fun k : Fin 128 => (outsAt0 m c t.val t.isLt).2 (topRows (ix2 b k)))
      = pooled (H m c) (W1 m c) (W2 m c) (W3 m c) (W4 m c) b := by
    funext k
    have hidx : topRows (ix2 b k) = ix2 (⟨b.val, by have := b.isLt; omega⟩ : Fin 8) k :=
      funext fun a => Fin.ext (match a with
        | ⟨0, _⟩ => topRows_val (ix2 b k) 0
        | ⟨1, _⟩ => topRows_val (ix2 b k) 1)
    rw [hidx]
    exact pooled_at_last m c t h1 b k
  rw [hrows, blk5 m c t, blk7 m c t, blk9 m c t, V_main_arg5 m c, V_main_arg7 m c, V_main_arg9 m c]
  have e6 : (fun j : (⟨1, ![128]⟩ : Shape).Idx => (iblk m c 6 t : Vec Ideal S1x128 .f32) (ix2 0 (j 0))) = C1b m c := by
    funext j; rw [blk6 m c t, arr6 m c (j 0)]; exact congrArg (C1b m c) (eq_ix1 j).symm
  have e8 : (fun j : (⟨1, ![128]⟩ : Shape).Idx => (iblk m c 8 t : Vec Ideal S1x128 .f32) (ix2 0 (j 0))) = C2b m c := by
    funext j; rw [blk8 m c t, arr8 m c (j 0)]; exact congrArg (C2b m c) (eq_ix1 j).symm
  have e10 : (fun j : (⟨1, ![10]⟩ : Shape).Idx => (iblk m c 10 t : Vec Ideal S1x10 .f32) (ix2 0 (j 0))) = C3b m c := by
    funext j; rw [blk10 m c t, arr10 m c (j 0)]; exact congrArg (C3b m c) (eq_ix1 j).symm
  rw [e6, e8, e10]

/-! ## The result array -/

/-- The one write-back of the output window, at the last point, writes the logits. -/
theorem flushed_eq (c : Dev nD) (t : Fin cfg0.N) (hf : (cfg0.win 11).flush t = true) :
    (dats m 0 c).flushed 11 t = ((cfg0.win 11).blk t).view.read (Elt Ideal) (logits (H m c) (W1 m c) (W2 m c) (W3 m c) (W4 m c) (C1w m c) (C1b m c) (C2w m c) (C2b m c) (C3w m c) (C3b m c)) := by
  have h1 : t.val % 80 = 79 := (flush0_11 t).mp hf
  have h0 : ¬t.val % 80 = 0 := by omega
  obtain ⟨i0, i1⟩ := idx_out t
  rw [Value.flushed11_C m c t h0 h1, out_at_last m c t h0 h1]
  funext y
  show k0_pay2 (F := Ideal) (fun j => (outsAt0 m c t.val t.isLt).2 (topRows j))
        (iblk m c 5 t) (iblk m c 6 t) (iblk m c 7 t) (iblk m c 8 t) (iblk m c 9 t) (iblk m c 10 t) y
      = logits (H m c) (W1 m c) (W2 m c) (W3 m c) (W4 m c) (C1w m c) (C1b m c) (C2w m c) (C2b m c) (C3w m c) (C3b m c) (((cfg0.win 11).blk t).view.emb y)
  have he : ((cfg0.win 11).blk t).view.emb y = y := by
    funext a; apply Fin.ext
    match a with
    | ⟨0, _⟩ => show win0_11.index t (0 : Fin 2) * 4 + 1 * (y 0).val = (y 0).val; omega
    | ⟨1, _⟩ => show win0_11.index t (1 : Fin 2) * 10 + 1 * (y 1).val = (y 1).val; omega
  rw [he]
  exact out_value m c t h1 y

/-- The last point's block is the whole result array. -/
theorem mem_last (t : Fin cfg0.N) (i : S4x10.Idx) : i ∈ ((cfg0.win 11).blk t).view.set := by
  obtain ⟨i0, i1⟩ := idx_out t
  show i ∈ ((View.whole main_v0).slice (win0_11.rect t)).set
  rw [View.set_slice_whole, Rect.mem_set_unit]
  intro a
  match a with
  | ⟨0, _⟩ =>
    show win0_11.index t (0 : Fin 2) * 4 ≤ (i 0).val ∧ (i 0).val < win0_11.index t (0 : Fin 2) * 4 + 4
    have hi : (i 0).val < 4 := (i 0).isLt; omega
  | ⟨1, _⟩ =>
    show win0_11.index t (1 : Fin 2) * 10 ≤ (i 1).val ∧ (i 1).val < win0_11.index t (1 : Fin 2) * 10 + 10
    have hi : (i 1).val < 10 := (i 1).isLt; omega

/-- THE RESULT ARRAY after the run is the logits of the argument arrays. -/
theorem final (c : Dev nD) : (dats m 0 c).arrAt 11 cfg0.N = logits (H m c) (W1 m c) (W2 m c) (W3 m c) (W4 m c) (C1w m c) (C1b m c) (C2w m c) (C2b m c) (C3w m c) (C3b m c) :=
  (dats m 0 c).arrAt_eq_of_cover 11 _ (fun t hf => flushed_eq m c t hf) fun i =>
    ⟨⟨79, lt_of_lt_of_eq (by norm_num : 79 < 80) (show cfg0.N = 80 from N_0).symm⟩,
      (flush0_11 _).mpr (by show 79 % 80 = 79; norm_num), mem_last _ i⟩

/-- The kernel's run: every weakly fair execution terminates with the result array at the logits and the arguments
    unchanged. -/
theorem run : θ_run defs (onTc (τ := τ) (main (F := Ideal))) ⟨m, fun _ => 0, ρ⟩ fun r => ∀ c : Dev nD,
      r.2.mem ((c : Thread nD τ).loc main_v0) = logits (H m c) (W1 m c) (W2 m c) (W3 m c) (W4 m c) (C1w m c) (C1b m c) (C2w m c) (C2b m c) (C3w m c) (C3b m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.PoolNet.Kernel

end
-- ==== Proof.lean ====
/-
  The certificate of a graph-level network with sum pooling: four layers `x ↦ max (x · W) 0` on every node's feature
  row, the sum of a graph's node rows, and a three-layer classifier on the pooled row.

  The kernel walks the 4 graphs of 100000 nodes in 80 grid points, one tile of 5000 nodes each. At every point it
  applies the four layers to the tile (at the ideal values a change of float format is the identity, and a product
  into the zero accumulator is the plain sum over the contracted index), sums the tile's rows and adds the sum into
  row `b` of an accumulator it carries from point to point, `b` the point's graph; the first point resets the
  accumulator, and the last point applies the classifier to the accumulator's four top rows and stores the result
  block, the only block written back. The reference applies the layers to the whole feature array, sums over the node
  axis and classifies.

  Both are the function `logits` of the eleven argument arrays (Proof/Spec.lean). For the kernel: after point `n` row
  `r` of the accumulator is the sum of the tile sums of the points `20·r + s ≤ n`, by induction on the point, so after the
  last point row `b` is the sum of graph `b`'s 20 tile sums, which is the sum over its 100000 nodes because addition of
  extended reals is commutative and associative; no finiteness of the inputs is used. For the reference: its 36
  host operations read stage by stage at an index.
-/
import proofs.«132480_g49924699848963_cont_8to1c4_406_4_alg».proof.Defs
import proofs.«132480_g49924699848963_cont_8to1c4_406_4_alg».proof.Proof.Gen.Kernel
import proofs.«132480_g49924699848963_cont_8to1c4_406_4_alg».proof.Proof.Gen.Kernel.Frame
import proofs.«132480_g49924699848963_cont_8to1c4_406_4_alg».proof.Proof.Gen.KernelIdeal
import proofs.«132480_g49924699848963_cont_8to1c4_406_4_alg».proof.Proof.Gen.KernelIdeal.Frame
import proofs.«132480_g49924699848963_cont_8to1c4_406_4_alg».proof.Proof.Gen.KernelIdeal.Value
import proofs.«132480_g49924699848963_cont_8to1c4_406_4_alg».proof.Proof.Gen.ReferenceIdeal
import proofs.«132480_g49924699848963_cont_8to1c4_406_4_alg».proof.Proof.Gen.ReferenceIdeal.Run
import proofs.«132480_g49924699848963_cont_8to1c4_406_4_alg».proof.Proof.Gen.ReferenceIdeal.Read
import proofs.«132480_g49924699848963_cont_8to1c4_406_4_alg».proof.Proof.Gen.Pre_finite_inputs
import proofs.«132480_g49924699848963_cont_8to1c4_406_4_alg».proof.Proof.Spec
import proofs.«132480_g49924699848963_cont_8to1c4_406_4_alg».proof.Proof.RefValue
import proofs.«132480_g49924699848963_cont_8to1c4_406_4_alg».proof.Proof.KernelValue

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal reading rewrote no operation. -/
theorem preserves : Cert.preserves_Kernel_KernelIdeal := trivial

/-- From memories agreeing on the arguments both programs end with the logits of the arguments. -/
theorem algebraic : Cert.algebraic_KernelIdeal_ReferenceIdeal := by
  intro m ρ m' ρ' _ hagree
  refine ⟨_, Cert.PoolNet.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  refine ((Cert.ReferenceIdeal.Read.val_main_v22_eq (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))).trans
    (Cert.PoolNet.Ref.reference_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)))).trans ?_
  rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
